-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x8x2048x2048 : Shape := ⟨4, ![4, 8, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel

variable [Facts]

def fn {F : FTy → Type} [FloatOps F] (main_arg0 : FVec F S4x8x2048x64 .f32) (main_arg1 : FVec F S4x8x2048x64 .f32) (main_arg2 : FVec F S4x8x2048x64 .f32) (main_arg3 : IVec S4x8x2048x2048 1) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  main_v13
-- ==== Kernel.lean ====
abbrev S4x8x2048x64 : Shape := ⟨4, ![4, 8, 2048, 64]⟩
abbrev S4x8x2048x2048 : Shape := ⟨4, ![4, 8, 2048, 2048]⟩
abbrev S32x2048x64 : Shape := ⟨3, ![32, 2048, 64]⟩
abbrev S32x2048x2048 : Shape := ⟨3, ![32, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩

abbrev nBuf : Space → Nat
  | .hbm => 11
  | .vmem => 10
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x2048, .i1⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .i1⟩
  | .hbm, ⟨8, _⟩ => ⟨S32x2048x2048, .i32⟩
  | .hbm, ⟨9, _⟩ => ⟨S32x2048x64, .f32⟩
  | .hbm, ⟨10, _⟩ => ⟨S4x8x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x2048, .i32⟩
  | .local _ .vmem, ⟨7, _⟩ => ⟨S1x1024x2048, .i32⟩
  | .local _ .vmem, ⟨8, _⟩ => ⟨S1x1024x64, .f32⟩
  | .local _ .vmem, ⟨9, _⟩ => ⟨S1x1024x64, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x8x2048x64_S32x2048x64 : S4x8x2048x64.ShapeCasts S32x2048x64
  shapeCasts_S4x8x2048x2048_S32x2048x2048 : S4x8x2048x2048.ShapeCasts S32x2048x2048
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x64_S1x1024x64 : S1024x64.ShapeCasts S1x1024x64
  shapeCasts_S32x2048x64_S4x8x2048x64 : S32x2048x64.ShapeCasts S4x8x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S32x2048x2048.size a
  hwx0_3 : ∀ i : grid0.Coords, EltTy.bits .i32 = 32 ∨ (Rect.block (s := S32x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S32x2048x64.size a
  hwx0_4 : ∀ i : grid0.Coords, EltTy.bits .f32 = 32 ∨ (Rect.block (s := S32x2048x64) S1x1024x64.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x8x2048x2048 : Shape := ⟨4, ![4, 8, 2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x2048, .i1⟩
  | .hbm, ⟨4, _⟩ => ⟨S4x8x2048x2048, .f32⟩
  | .hbm, ⟨5, _⟩ => ⟨S_, .f32⟩
  | .hbm, ⟨6, _⟩ => ⟨S4x8x2048x2048, .f32⟩
  | .hbm, ⟨7, _⟩ => ⟨S4x8x2048x2048, .f32⟩
  | .hbm, ⟨8, _⟩ => ⟨S4x8x2048x2048, .f32⟩
  | .hbm, ⟨9, _⟩ => ⟨S4x8x2048x2048, .i1⟩
  | .hbm, ⟨10, _⟩ => ⟨S4x8x2048x2048, .f32⟩
  | .hbm, ⟨11, _⟩ => ⟨S4x8x2048x2048, .f32⟩
  | .hbm, ⟨12, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.Finite.lean ====
/-
  What the precondition says of the float arguments: the printed predicate is the conjunction of three
  "all entries have absolute value below +∞" tests, so where it is all ones every entry of each float
  argument is a real number (neither infinity, and not the junk value a NaN reads as, which is `⊥`).
-/
import proofs.«425408_j67637144978383_3_alg».proof.Pre_finite_inputs
import proofs.«425408_j67637144978383_3_alg».proof.Proof.Gen.Pre_finite_inputs
import Idealize.ShloMosaic.Lib.ReduceAll
import Idealize.ShloMosaic.PureOps.Ideal
import Idealize.ShloMosaic.PureOps.Ideal.Laws

noncomputable section

namespace Cert.Attn.Finite

open Idealize.ShloMosaic Cert.Pre_finite_inputs

instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real whose absolute value `max x (-x)` is strictly below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One entry's test read back. -/
theorem real_of_test (x : Ideal .f32) (h : FloatOps.cmpf .olt (FloatOps.hostAbsf x) (FloatOps.ofBits (F := Ideal) .f32 0x7F800000#32) = 1#1) :
    ∃ r : ℝ, x = (r : EReal) := by
  apply real_of_abs_lt_top
  rw [Ideal.hostAbsf_def, Ideal.cmpf_def, Ideal.absf_def, Ideal.ofBits_def, inf_word] at h
  unfold Ideal.cmp at h
  by_contra hn
  simp [hn] at h

/-- Where the precondition is all ones, every entry of the three float arguments is real. -/
theorem real_of_pre (x0 x1 x2 : FVec Ideal S4x8x2048x64 .f32) (x3 : IVec S4x8x2048x2048 1)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h (fun a => a.elim0)
  dsimp only [Cert.Pre_finite_inputs.fn, andi] at h0
  obtain ⟨h01, h2⟩ := IntOp.andi_eq_one.1 h0
  obtain ⟨h0', h1⟩ := IntOp.andi_eq_one.1 h01
  refine ⟨fun i => ?_, fun i => ?_, fun i => ?_⟩
  · exact real_of_test _ (Host.reduce_andi_all _ _ _ _ _ h0' i)
  · exact real_of_test _ (Host.reduce_andi_all _ _ _ _ _ h1 i)
  · exact real_of_test _ (Host.reduce_andi_all _ _ _ _ _ h2 i)

end Cert.Attn.Finite

end
-- ==== Proof.Payload.lean ====
/-
  What one grid point's body stores, entry by entry, at the ideal instance.

  The body reads a query tile `x0` (1×1024×64), the head's keys `x1` and values `x2` (1×2048×64 each) and a
  mask tile `x3` (1×1024×2048, 32-bit words). Entry (z, r, d) of what it stores is

      ∑ m < 2048,  [x3(z,r,m) ≠ 0 ? 0 : tanh (∑ e < 64, (x0(z,r,e) · 2⁻³) · x1(z,m,e))] · x2(z,m,d):

  the two matrix products are plain sums over their one contracted axis, the changes of float format are the
  identity, and the casts between 1×R×C and R×C only drop or add the leading unit coordinate.
-/
import proofs.«425408_j67637144978383_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Attn

open Cert.KernelIdeal Cert.KernelIdeal.Gen Idealize.ShloMosaic Idealize.ShloMosaic.ValueIdx

/-! ## The score product: queries (rows) against keys (rows), contracted over the 64 features -/

theorem lhs_scores_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_scores_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_scores_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_scores_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Entry (r, m) of the score product is the dot product of query row r with key row m. -/
theorem scores_apply (a : FVec Ideal S1024x64 .bf16) (b : FVec Ideal S2048x64 .bf16) (r : Fin 1024) (m : Fin 2048) :
    matmul dot_S1024x64_S2048x64_S1024x2048_1_1_0_0_n_n none a b (constant S1024x2048 .f32 0x00000000#32) (ix2 r m)
      = ∑ e : Fin 64, a (ix2 r e) * b (ix2 m e) := by
  simp only [matmul]
  rw [Ideal.matmul_constant_zero_apply, ← Equiv.sum_comp (contrEquiv1 dot_S1024x64_S2048x64_S1024x2048_1_1_0_0_n_n 64 rfl rfl).symm]
  refine Finset.sum_congr rfl fun e _ => ?_
  have hk := contrEquiv1_symm_val dot_S1024x64_S2048x64_S1024x2048_1_1_0_0_n_n 64 rfl rfl e
  have el : dot_S1024x64_S2048x64_S1024x2048_1_1_0_0_n_n.lhsIdx (ix2 r m) ((contrEquiv1 dot_S1024x64_S2048x64_S1024x2048_1_1_0_0_n_n 64 rfl rfl).symm e) = ix2 r e := funext fun a => Fin.ext (by
    match a with
    | ⟨0, _⟩ => exact lhs_scores_0 _ _
    | ⟨1, _⟩ => exact (lhs_scores_1 _ _).trans hk)
  have er : dot_S1024x64_S2048x64_S1024x2048_1_1_0_0_n_n.rhsIdx (ix2 r m) ((contrEquiv1 dot_S1024x64_S2048x64_S1024x2048_1_1_0_0_n_n 64 rfl rfl).symm e) = ix2 m e := funext fun a => Fin.ext (by
    match a with
    | ⟨0, _⟩ => exact rhs_scores_0 _ _
    | ⟨1, _⟩ => exact (rhs_scores_1 _ _).trans hk)
  rw [el, er]

/-! ## The output product: weights (rows) against values (columns), contracted over the 2048 keys -/

theorem lhs_out_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_out_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_out_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_out_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Entry (r, d) of the output product is the sum over the keys m of weight (r, m) times value (m, d). -/
theorem out_apply (a : FVec Ideal S1024x2048 .bf16) (b : FVec Ideal S2048x64 .bf16) (r : Fin 1024) (d : Fin 64) :
    matmul dot_S1024x2048_S2048x64_S1024x64_1_0_0_1_n_n none a b (constant S1024x64 .f32 0x00000000#32) (ix2 r d)
      = ∑ m : Fin 2048, a (ix2 r m) * b (ix2 m d) := by
  simp only [matmul]
  rw [Ideal.matmul_constant_zero_apply, ← Equiv.sum_comp (contrEquiv1 dot_S1024x2048_S2048x64_S1024x64_1_0_0_1_n_n 2048 rfl rfl).symm]
  refine Finset.sum_congr rfl fun m _ => ?_
  have hk := contrEquiv1_symm_val dot_S1024x2048_S2048x64_S1024x64_1_0_0_1_n_n 2048 rfl rfl m
  have el : dot_S1024x2048_S2048x64_S1024x64_1_0_0_1_n_n.lhsIdx (ix2 r d) ((contrEquiv1 dot_S1024x2048_S2048x64_S1024x64_1_0_0_1_n_n 2048 rfl rfl).symm m) = ix2 r m := funext fun a => Fin.ext (by
    match a with
    | ⟨0, _⟩ => exact lhs_out_0 _ _
    | ⟨1, _⟩ => exact (lhs_out_1 _ _).trans hk)
  have er : dot_S1024x2048_S2048x64_S1024x64_1_0_0_1_n_n.rhsIdx (ix2 r d) ((contrEquiv1 dot_S1024x2048_S2048x64_S1024x64_1_0_0_1_n_n 2048 rfl rfl).symm m) = ix2 m d := funext fun a => Fin.ext (by
    match a with
    | ⟨0, _⟩ => exact (rhs_out_0 _ _).trans hk
    | ⟨1, _⟩ => exact rhs_out_1 _ _)
  rw [el, er]

/-! ## The casts between a 1×R×C block and its R×C matrix -/

/-- Dropping the leading unit axis reads the block at (z, r, c), whatever the name `z` of its one leading index. -/
theorem drop_unit_apply {α : Type} {R C : Nat} (x : (⟨3, ![1, R, C]⟩ : Shape).Idx → α)
    (h : (⟨3, ![1, R, C]⟩ : Shape).ShapeCasts ⟨2, ![R, C]⟩) (z : Fin 1) (r : Fin R) (c : Fin C) :
    shapeCast ⟨2, ![R, C]⟩ x h (ix2 r c) = x (ix3 z r c) := by
  refine shapeCast_apply x h (ix2 r c) (ix3 z r c) ?_
  rw [Shape.rowMajor_val_three, Shape.rowMajor_val_two]
  have hz : z.val = 0 := by omega
  show (z.val * R + r.val) * C + c.val = r.val * C + c.val
  rw [hz]; simp

/-- Adding the leading unit axis reads the matrix at (r, c). -/
theorem add_unit_apply {α : Type} {R C : Nat} (x : (⟨2, ![R, C]⟩ : Shape).Idx → α)
    (h : (⟨2, ![R, C]⟩ : Shape).ShapeCasts ⟨3, ![1, R, C]⟩) (z : Fin 1) (r : Fin R) (c : Fin C) :
    shapeCast ⟨3, ![1, R, C]⟩ x h (ix3 z r c) = x (ix2 r c) := by
  refine shapeCast_apply x h (ix3 z r c) (ix2 r c) ?_
  rw [Shape.rowMajor_val_three, Shape.rowMajor_val_two]
  have hz : z.val = 0 := by omega
  show r.val * C + c.val = (z.val * R + r.val) * C + c.val
  rw [hz]; simp

/-! ## The stored value -/

/-- The weight of key m for query row r: zero where the mask word is not zero, else the hyperbolic tangent of the
    scaled dot product of the query row with the key row. -/
def weight (x0 : Vec Ideal S1x1024x64 .f32) (x1 : Vec Ideal S1x2048x64 .f32) (x3 : Vec Ideal S1x1024x2048 .i32)
    (z : Fin 1) (r : Fin 1024) (m : Fin 2048) : EReal :=
  Scalar.select (IntOp.cmpi .ne (x3 (ix3 z r m)) 0#32) (Ideal.ofBits .f32 0x00000000#32)
    (Ideal.tanh (∑ e : Fin 64, (x0 (ix3 z r e) * Ideal.ofBits .f32 0x3E000000#32) * x1 (ix3 z m e)))

/-- Entry (z, r, d) of what the body stores. -/
theorem pay_apply (x0 : Vec Ideal S1x1024x64 .f32) (x1 x2 : Vec Ideal S1x2048x64 .f32) (x3 : Vec Ideal S1x1024x2048 .i32)
    (z : Fin 1) (r : Fin 1024) (d : Fin 64) :
    k0_pay1 x0 x1 x2 x3 (ix3 z r d) = ∑ m : Fin 2048, weight x0 x1 x3 z r m * x2 (ix3 z m d) := by
  unfold k0_pay1
  rw [add_unit_apply _ _ z r d, out_apply]
  refine Finset.sum_congr rfl fun m _ => ?_
  rw [truncf_apply, truncf_apply, select_apply, drop_unit_apply _ _ z m d]
  congr 1
  unfold weight
  simp only [cmpi, Idealize.ShloMosaic.tanh, broadcast_apply, constantI, Ideal.tanh_def, Ideal.ofBits_def]
  rw [drop_unit_apply _ _ z r m, scores_apply]
  refine congrArg (fun s => Scalar.select (IntOp.cmpi .ne (x3 (ix3 z r m)) 0#32) (Ideal.ofBits .f32 0x00000000#32) (Ideal.tanh s)) ?_
  refine Finset.sum_congr rfl fun e _ => ?_
  rw [truncf_apply, truncf_apply, mulf_apply, broadcast_apply, drop_unit_apply _ _ z r e, drop_unit_apply _ _ z m e]

end Cert.KernelIdeal.Attn

end
-- ==== Proof.Blocks.lean ====
/-
  From one grid point's block to the whole output array of the region.

  The grid is 32 (batch·head) × 2 (query tiles of 1024 rows). At point (g, q) the body sees query rows
  q·1024 … q·1024+1023 of head g, all 2048 key and value rows of head g, and the mask rows of the same queries.
  So what it stores is the block at (g, q) of ONE function of the region's arrays (`regionOut`): entry (g, n, d) is

      ∑ m < 2048,  [M(g,n,m) ≠ 0 ? 0 : tanh (∑ e < 64, (Q(g,n,e) · 2⁻³) · K(g,m,e))] · V(g,m,d).

  The 64 output blocks tile the 32×2048×64 array (row n lies in tile n / 1024), so after the last write-back the
  array is that function everywhere.
-/
import proofs.«425408_j67637144978383_3_alg».proof.Proof.Gen.KernelIdeal.Frame
import proofs.«425408_j67637144978383_3_alg».proof.Proof.Payload
import Idealize.ShloMosaic.Lib.Pipeline.Value
import Idealize.ShloMosaic.Lib.ValueIdx

set_option maxRecDepth 16384

noncomputable section

namespace Cert.KernelIdeal.Attn

open Cert.KernelIdeal Cert.KernelIdeal.Gen Idealize.ShloMosaic Idealize.ShloMosaic.ValueIdx Idealize.ShloMosaic.TcCoe Idealize.SL.Sem
open Idealize.ShloMosaic.Pipeline (Dat)

/-- The weight of key m for query n of head g, over the region's arrays. -/
def regionWeight (Q K : Vec Ideal S32x2048x64 .f32) (M : Vec Ideal S32x2048x2048 .i32) (g : Fin 32) (n mm : Fin 2048) : EReal :=
  Scalar.select (IntOp.cmpi .ne (M (ix3 g n mm)) 0#32) (Ideal.ofBits .f32 0x00000000#32)
    (Ideal.tanh (∑ e : Fin 64, (Q (ix3 g n e) * Ideal.ofBits .f32 0x3E000000#32) * K (ix3 g mm e)))

/-- Entry (g, n, d) of the region's output, from its four input arrays. -/
def regionOutAt (Q K Vv : Vec Ideal S32x2048x64 .f32) (M : Vec Ideal S32x2048x2048 .i32) (g : Fin 32) (n : Fin 2048) (d : Fin 64) : EReal :=
  ∑ mm : Fin 2048, regionWeight Q K M g n mm * Vv (ix3 g mm d)

/-- The region's output array as one function of its four input arrays. -/
def regionOut (Q K Vv : Vec Ideal S32x2048x64 .f32) (M : Vec Ideal S32x2048x2048 .i32) : Vec Ideal S32x2048x64 .f32 := fun i =>
  regionOutAt Q K Vv M ⟨(i 0).val, (i 0).isLt⟩ ⟨(i 1).val, (i 1).isLt⟩ ⟨(i 2).val, (i 2).isLt⟩

theorem regionOut_ix3 (Q K Vv : Vec Ideal S32x2048x64 .f32) (M : Vec Ideal S32x2048x2048 .i32) (g : Fin 32) (n : Fin 2048) (d : Fin 64) :
    regionOut Q K Vv M (ix3 g n d) = regionOutAt Q K Vv M g n d := rfl

/-- What the body stores at block entry (z0, r, d) is the region's output entry (g, n, d), as soon as the body's four
    input blocks are the arrays read along head g and query row n. -/
theorem block_eq (x0 : Vec Ideal S1x1024x64 .f32) (x1 x2 : Vec Ideal S1x2048x64 .f32) (x3 : Vec Ideal S1x1024x2048 .i32)
    (Q K Vv : Vec Ideal S32x2048x64 .f32) (M : Vec Ideal S32x2048x2048 .i32)
    (z0 : Fin 1) (r : Fin 1024) (d : Fin 64) (g : Fin 32) (n : Fin 2048)
    (h0 : ∀ (z : Fin 1) (e : Fin 64), x0 (ix3 z r e) = Q (ix3 g n e))
    (h1 : ∀ (z : Fin 1) (mm : Fin 2048) (e : Fin 64), x1 (ix3 z mm e) = K (ix3 g mm e))
    (h2 : ∀ (z : Fin 1) (mm : Fin 2048), x2 (ix3 z mm d) = Vv (ix3 g mm d))
    (h3 : ∀ (z : Fin 1) (mm : Fin 2048), x3 (ix3 z r mm) = M (ix3 g n mm)) :
    k0_pay1 x0 x1 x2 x3 (ix3 z0 r d) = regionOutAt Q K Vv M g n d := by
  rw [pay_apply]
  unfold regionOutAt
  refine Finset.sum_congr rfl fun mm _ => ?_
  unfold weight regionWeight
  rw [h3, h2]
  simp only [h0, h1]

variable (m : (ℓ : Loc nD τ sig) → Buf (Elt Ideal) ℓ)

theorem hz3 : (![0, 0, 0] : Fin 3 → Nat) = fun _ => 0 := funext fun a => by fin_cases a <;> rfl

/-- The printed index maps, decided over the 64 points: queries, mask and output move together over (head, tile);
    keys and values follow the head only; every last block index is 0. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (0 : Fin 3) ≤ 31 ∧ win0_4.index t (1 : Fin 3) ≤ 1 ∧ win0_4.index t (2 : Fin 3) = 0 :=
  (by decide +kernel : ∀ t : Fin grid0.N, _)

/-- Every (head, tile) pair is some point's output block. -/
theorem idx_onto : ∀ (q0 : Fin 32) (q1 : Fin 2), ∃ t : Fin cfg0.N, win0_4.index t = ![q0.val, q1.val, 0] :=
  (by decide +kernel : ∀ (q0 : Fin 32) (q1 : Fin 2), ∃ t : Fin grid0.N, win0_4.index t = ![q0.val, q1.val, 0])

/-- Entry (z0, r, d) of what point `t` stores is `regionOut` where the output block puts that entry. -/
theorem stored_eq (c : Dev nD) (t : Fin cfg0.N) (j : S1x1024x64.Idx) :
    k0_pay1 (iblk m c 0 t) (iblk m c 1 t) (iblk m c 2 t) (iblk m c 3 t) j
      = regionOut (V m c main_v0) (V m c main_v1) (V m c main_v2) (V m c main_v4) (((cfg0.win 4).blk t).view.emb j) := by
  obtain ⟨e00, e01, e02, e10, e11, e12, e20, e21, e22, e30, e31, e32, e40, e41, e42⟩ := idx_facts t
  obtain ⟨z0, r, d, rfl⟩ : ∃ (z0 : Fin 1) (r : Fin 1024) (d : Fin 64), j = ix3 z0 r d := ⟨j 0, j 1, j 2, eq_ix3 j⟩
  have hz0 : z0.val < 1 := z0.isLt
  have hr : r.val < 1024 := r.isLt
  have hemb : ((cfg0.win 4).blk t).view.emb (ix3 z0 r d)
      = ix3 (⟨win0_4.index t (0 : Fin 3), by omega⟩ : Fin 32) (⟨win0_4.index t (1 : Fin 3) * 1024 + r.val, by omega⟩ : Fin 2048) d :=
    funext fun a => Fin.ext (by
      match a with
      | ⟨0, _⟩ => show win0_4.index t (0 : Fin 3) * 1 + 1 * z0.val = win0_4.index t (0 : Fin 3); omega
      | ⟨1, _⟩ => show win0_4.index t (1 : Fin 3) * 1024 + 1 * r.val = win0_4.index t (1 : Fin 3) * 1024 + r.val; omega
      | ⟨2, _⟩ => show win0_4.index t (2 : Fin 3) * 64 + 1 * d.val = d.val; omega)
  refine (block_eq _ _ _ _ (V m c main_v0) (V m c main_v1) (V m c main_v2) (V m c main_v4) z0 r d _ _ ?_ ?_ ?_ ?_).trans
    ((regionOut_ix3 _ _ _ _ _ _ _).symm.trans (congrArg (regionOut (V m c main_v0) (V m c main_v1) (V m c main_v2) (V m c main_v4)) hemb.symm))
  · intro z e
    show V m c main_v0 (((cfg0.win 0).blk t).view.emb (ix3 z r e)) = _
    refine congrArg (V m c main_v0) (funext fun a => Fin.ext ?_)
    have hz : z.val < 1 := z.isLt
    match a with
    | ⟨0, _⟩ => show win0_0.index t (0 : Fin 3) * 1 + 1 * z.val = win0_4.index t (0 : Fin 3); omega
    | ⟨1, _⟩ => show win0_0.index t (1 : Fin 3) * 1024 + 1 * r.val = win0_4.index t (1 : Fin 3) * 1024 + r.val; omega
    | ⟨2, _⟩ => show win0_0.index t (2 : Fin 3) * 64 + 1 * e.val = e.val; omega
  · intro z mm e
    show V m c main_v1 (((cfg0.win 1).blk t).view.emb (ix3 z mm e)) = _
    refine congrArg (V m c main_v1) (funext fun a => Fin.ext ?_)
    have hz : z.val < 1 := z.isLt
    match a with
    | ⟨0, _⟩ => show win0_1.index t (0 : Fin 3) * 1 + 1 * z.val = win0_4.index t (0 : Fin 3); omega
    | ⟨1, _⟩ => show win0_1.index t (1 : Fin 3) * 2048 + 1 * mm.val = mm.val; omega
    | ⟨2, _⟩ => show win0_1.index t (2 : Fin 3) * 64 + 1 * e.val = e.val; omega
  · intro z mm
    show V m c main_v2 (((cfg0.win 2).blk t).view.emb (ix3 z mm d)) = _
    refine congrArg (V m c main_v2) (funext fun a => Fin.ext ?_)
    have hz : z.val < 1 := z.isLt
    match a with
    | ⟨0, _⟩ => show win0_2.index t (0 : Fin 3) * 1 + 1 * z.val = win0_4.index t (0 : Fin 3); omega
    | ⟨1, _⟩ => show win0_2.index t (1 : Fin 3) * 2048 + 1 * mm.val = mm.val; omega
    | ⟨2, _⟩ => show win0_2.index t (2 : Fin 3) * 64 + 1 * d.val = d.val; omega
  · intro z mm
    show V m c main_v4 (((cfg0.win 3).blk t).view.emb (ix3 z r mm)) = _
    refine congrArg (V m c main_v4) (funext fun a => Fin.ext ?_)
    have hz : z.val < 1 := z.isLt
    match a with
    | ⟨0, _⟩ => show win0_3.index t (0 : Fin 3) * 1 + 1 * z.val = win0_4.index t (0 : Fin 3); omega
    | ⟨1, _⟩ => show win0_3.index t (1 : Fin 3) * 1024 + 1 * r.val = win0_4.index t (1 : Fin 3) * 1024 + r.val; omega
    | ⟨2, _⟩ => show win0_3.index t (2 : Fin 3) * 2048 + 1 * mm.val = mm.val; omega

/-- WHAT POINT `t` WRITES BACK is block `t` of `regionOut` of the arrays as the region finds them. -/
theorem flushed_eq (c : Dev nD) (t : Fin cfg0.N) :
    (dats m 0 c).flushed 4 t = ((cfg0.win 4).blk t).view.read (Elt Ideal)
      (regionOut (V m c main_v0) (V m c main_v1) (V m c main_v2) (V m c main_v4)) := by
  show (cfg0.win 4).cut (grid0.coords t) ((dats m 0 c).after 4 t) = _
  rw [after0_4]
  unfold out0_4
  rw [View.canon_unit_zero hz3]
  simp only [View.ld_unit_zero (S := S1x1024x64) hz3, View.ld_unit_zero (S := S1x2048x64) hz3, View.ld_unit_zero (S := S1x1024x2048) hz3]
  exact funext (stored_eq m c t)

/-- An index of the output array is in point `t`'s block iff each coordinate is in the block's range on its axis. -/
theorem mem_blk (t : Fin cfg0.N) (i : S32x2048x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v5).slice (win0_4.rect t)).set ↔ _
  rw [View.set_slice_whole, Rect.mem_set_unit]
  exact Iff.rfl

/-- The output blocks tile the array: index (g, n, d) lies in the block of head g and tile n / 1024. -/
theorem cover (i : S32x2048x64.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- THE OUTPUT ARRAY after the region: `regionOut` of the arrays as the region finds them. -/
theorem final (c : Dev nD) :
    (dats m 0 c).arrAt 4 cfg0.N = regionOut (V m c main_v0) (V m c main_v1) (V m c main_v2) (V m c main_v4) :=
  (dats m 0 c).arrAt_eq_of_cover 4 _ (fun t _ => flushed_eq m c t) cover

end Cert.KernelIdeal.Attn

end
-- ==== Proof.KernelRun.lean ====
/-
  The idealized kernel's whole run, read as a value.

  Before the region the host merges the batch and head axes of the four arguments (4×8×… to 32×…) and widens the
  one-bit mask to 32-bit words; after it, the host splits the merged axis of the region's output again. So the
  program's result is `kernelOut`: the region's function of the merged arguments, split back.
-/
import proofs.«425408_j67637144978383_3_alg».proof.Proof.Blocks
import Idealize.ShloMosaic.Lib.StableHlo.Run

set_option maxRecDepth 16384

noncomputable section

namespace Cert.KernelIdeal.Attn

open Cert.KernelIdeal Cert.KernelIdeal.Gen Idealize.ShloMosaic Idealize.ShloMosaic.ValueIdx Idealize.ShloMosaic.TcCoe Idealize.SL.Sem
open Idealize.ShloMosaic.StableHlo

/-- The program's result as a function of its four arguments. -/
def kernelOut (q k v : Vec Ideal S4x8x2048x64 .f32) (mask : Vec Ideal S4x8x2048x2048 .i1) : Vec Ideal S4x8x2048x64 .f32 :=
  shapeCast S4x8x2048x64
    (regionOut (shapeCast S32x2048x64 q shapeCasts_S4x8x2048x64_S32x2048x64) (shapeCast S32x2048x64 k shapeCasts_S4x8x2048x64_S32x2048x64)
      (shapeCast S32x2048x64 v shapeCasts_S4x8x2048x64_S32x2048x64)
      (extui 32 (shapeCast S32x2048x2048 mask shapeCasts_S4x8x2048x2048_S32x2048x2048) natLt_1_32))
    shapeCasts_S32x2048x64_S4x8x2048x64

variable (m : (ℓ : Loc nD τ sig) → Buf (Elt Ideal) ℓ) (ρ : Dev nD → PrngReg)

/-- The region finds the merged queries in its first array. -/
theorem V_v0 (c : Dev nD) : (V m c main_v0 : Vec Ideal S32x2048x64 .f32)
    = shapeCast S32x2048x64 (m ((c : Thread nD τ).loc main_arg0)) shapeCasts_S4x8x2048x64_S32x2048x64 := by
  show StableHlo.after hostOps0 (fun b => m (c, b)) (Proc.devRef .tc main_v0) = _
  after_results
  rfl
/-- The merged keys. -/
theorem V_v1 (c : Dev nD) : (V m c main_v1 : Vec Ideal S32x2048x64 .f32)
    = shapeCast S32x2048x64 (m ((c : Thread nD τ).loc main_arg1)) shapeCasts_S4x8x2048x64_S32x2048x64 := by
  show StableHlo.after hostOps0 (fun b => m (c, b)) (Proc.devRef .tc main_v1) = _
  after_results
  rfl
/-- The merged values. -/
theorem V_v2 (c : Dev nD) : (V m c main_v2 : Vec Ideal S32x2048x64 .f32)
    = shapeCast S32x2048x64 (m ((c : Thread nD τ).loc main_arg2)) shapeCasts_S4x8x2048x64_S32x2048x64 := by
  show StableHlo.after hostOps0 (fun b => m (c, b)) (Proc.devRef .tc main_v2) = _
  after_results
  rfl
/-- The merged mask, widened. -/
theorem V_v4 (c : Dev nD) : (V m c main_v4 : Vec Ideal S32x2048x2048 .i32)
    = extui 32 (shapeCast S32x2048x2048 (m ((c : Thread nD τ).loc main_arg3)) shapeCasts_S4x8x2048x2048_S32x2048x2048) natLt_1_32 := by
  show StableHlo.after hostOps0 (fun b => m (c, b)) (Proc.devRef .tc main_v4) = _
  after_results
  rfl

/-- The host line after the region splits the region's output array. -/
theorem tail_eq (c : Dev nD) :
    Pipeline.afterTail₀ cfgs (dats m) 0 (V0 m) [hostOps1] c main_v6
      = kernelOut (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v6) = _
  after_results
  have harr := (Pipeline.withArrays_arr spec0 launch0.win.arr_inj c (V0 m c) (fun w => (dats m 0 c).arrAt w (cfgs 0).N) 4).trans (final m c)
  rw [V_v0, V_v1, V_v2, V_v4] at harr
  unfold kernelOut
  funext i
  exact congrFun (congrArg (fun a => shapeCast S4x8x2048x64 a shapeCasts_S32x2048x64_S4x8x2048x64) harr) i

/-- THE RUN of the idealized kernel: every weakly fair execution terminates with the result at `kernelOut` of the
    arguments, the arguments unchanged. -/
theorem run : θ_run defs (onTc (τ := τ) (main (F := Ideal))) ⟨m, fun _ => 0, ρ⟩ fun r => ∀ c : Dev nD,
      r.2.mem ((c.tc : Thread nD τ).loc main_v6) = kernelOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Attn

end
-- ==== Proof.RefValue.lean ====
/-
  The reference's result, entry by entry, at the ideal instance: entry (b, h, n, d) is

      ∑ m < 2048,  [tanh ((∑ e < 64, q(b,h,n,e) · k(b,h,m,e)) · 2⁻³) · (¬mask(b,h,n,m) as 0 or 1)] · v(b,h,m,d),

  read off the reference's operations one at a time (the two `dot_general`s as sums over their contracted axis).
-/
import proofs.«425408_j67637144978383_3_alg».proof.Proof.Gen.ReferenceIdeal.Read
import Idealize.ShloMosaic.Lib.ValueIdx

noncomputable section

namespace Cert.ReferenceIdeal.Attn

open Cert.ReferenceIdeal Cert.ReferenceIdeal.Read Idealize.ShloMosaic Idealize.ShloMosaic.ValueIdx

/-- The reference's weight of key m for query n of batch b and head h. -/
def refWeight (q k : Vec Ideal S4x8x2048x64 .f32) (mask : Vec Ideal S4x8x2048x2048 .i1) (b : Fin 4) (h : Fin 8) (n mm : Fin 2048) : EReal :=
  Ideal.tanh ((∑ e : Fin 64, q (ix4 b h n e) * k (ix4 b h mm e)) * Ideal.ofBits .f32 0x3E000000#32)
    * (((~~~(mask (ix4 b h n mm))).toNat : ℝ) : EReal)

/-- Entry (b, h, n, d) of the reference's result. -/
theorem ref_apply (q k v : Vec Ideal S4x8x2048x64 .f32) (mask : Vec Ideal S4x8x2048x2048 .i1)
    (b : Fin 4) (h : Fin 8) (n : Fin 2048) (d : Fin 64) :
    val_main_v7 (F := Ideal) q k v mask (ix4 b h n d) = ∑ mm : Fin 2048, refWeight q k mask b h n mm * v (ix4 b h mm d) := by
  rw [val_main_v7_apply]
  refine Finset.sum_congr rfl fun mm _ => ?_
  have el : lidx_main_v7 (ix4 b h n d) mm = ix4 b h n mm := funext fun a => Fin.ext (by
    match a with | ⟨0, _⟩ => rfl | ⟨1, _⟩ => rfl | ⟨2, _⟩ => rfl | ⟨3, _⟩ => rfl)
  have er : ridx_main_v7 (ix4 b h n d) mm = ix4 b h mm d := funext fun a => Fin.ext (by
    match a with | ⟨0, _⟩ => rfl | ⟨1, _⟩ => rfl | ⟨2, _⟩ => rfl | ⟨3, _⟩ => rfl)
  have el0 : ∀ e : Fin 64, lidx_main_v0 (ix4 b h n mm) e = ix4 b h n e := fun e => funext fun a => Fin.ext (by
    match a with | ⟨0, _⟩ => rfl | ⟨1, _⟩ => rfl | ⟨2, _⟩ => rfl | ⟨3, _⟩ => rfl)
  have er0 : ∀ e : Fin 64, ridx_main_v0 (ix4 b h n mm) e = ix4 b h mm e := fun e => funext fun a => Fin.ext (by
    match a with | ⟨0, _⟩ => rfl | ⟨1, _⟩ => rfl | ⟨2, _⟩ => rfl | ⟨3, _⟩ => rfl)
  rw [el, er, val_main_v6_apply, val_main_v3_apply, val_main_v2_apply, val_main_v0_apply, val_main_v1_apply, val_main_cst_apply,
    val_main_v5_apply, val_main_v4_apply]
  simp only [el0, er0]
  rfl

end Cert.ReferenceIdeal.Attn

end
-- ==== Proof.Laws.lean ====
/-
  Scalar laws on the extended reals that join the two programs.

  * A sum of real-valued extended reals is the real sum (`coe_sum`).
  * Scaling one factor of every product of a finite dot product by a real constant scales the dot product:
    `∑ e, (a e · c) · b e = (∑ e, a e · b e) · c` when every `a e`, `b e` and `c` is real (`scaled_dot`);
    on the extended reals the law needs that finiteness, since multiplication does not distribute over
    sums that meet both infinities.
  * A one-bit mask `b`, widened to 32 bits and compared with zero, selecting `0` over `t`, is the product of
    `t` with the complement bit read as a number: `b = 1` gives `0 = t · 0`, `b = 0` gives `t = t · 1` (`masked`).
  * The word `0x3E000000` is the real `1/8` (`eighth`).
-/
import Idealize.ShloMosaic.PureOps.Ideal
import Idealize.ShloMosaic.PureOps.Ideal.Laws
import Idealize.ShloMosaic.Lib.ValueIdx

noncomputable section

namespace Cert.Attn.Laws

open Idealize.ShloMosaic

/-- The coercion from the reals commutes with finite sums. -/
theorem coe_sum {ι : Type} (s : Finset ι) (f : ι → ℝ) : ((∑ e ∈ s, f e : ℝ) : EReal) = ∑ e ∈ s, (f e : EReal) := by
  classical
  induction s using Finset.induction_on with
  | empty => simp
  | insert a s ha ih => rw [Finset.sum_insert ha, Finset.sum_insert ha, EReal.coe_add, ih]

/-- A real scale on the left factors of a dot product of real-valued vectors comes out of the sum. -/
theorem scaled_dot {n : Nat} (a b : Fin n → EReal) (c : ℝ) (ha : ∀ e, ∃ r : ℝ, a e = (r : EReal)) (hb : ∀ e, ∃ r : ℝ, b e = (r : EReal)) :
    ∑ e : Fin n, (a e * (c : EReal)) * b e = (∑ e : Fin n, a e * b e) * (c : EReal) := by
  choose ra hra using ha
  choose rb hrb using hb
  have h1 : ∀ e, (a e * (c : EReal)) * b e = ((ra e * c * rb e : ℝ) : EReal) := fun e => by
    rw [hra e, hrb e, ← EReal.coe_mul, ← EReal.coe_mul]
  have h2 : ∀ e, a e * b e = ((ra e * rb e : ℝ) : EReal) := fun e => by
    rw [hra e, hrb e, ← EReal.coe_mul]
  simp only [h1, h2]
  rw [← coe_sum, ← coe_sum, ← EReal.coe_mul, Finset.sum_mul]
  congr 1
  exact Finset.sum_congr rfl fun e _ => by ring

/-- The dot product of real-valued vectors is real. -/
theorem dot_real {n : Nat} (a b : Fin n → EReal) (ha : ∀ e, ∃ r : ℝ, a e = (r : EReal)) (hb : ∀ e, ∃ r : ℝ, b e = (r : EReal)) :
    ∃ r : ℝ, ∑ e : Fin n, a e * b e = (r : EReal) := by
  choose ra hra using ha
  choose rb hrb using hb
  refine ⟨∑ e : Fin n, ra e * rb e, ?_⟩
  rw [coe_sum]
  exact Finset.sum_congr rfl fun e _ => by rw [hra e, hrb e, ← EReal.coe_mul]

/-- The two values of a one-bit word. -/
theorem bit_cases (b : BitVec 1) : b = 0#1 ∨ b = 1#1 := by
  revert b; decide

/-- Selecting zero where the widened mask bit is set is multiplying by the complement bit. -/
theorem masked (b : BitVec 1) (t : EReal) :
    Scalar.select (IntOp.cmpi .ne (b.setWidth 32) 0#32) (0 : EReal) t = t * (((~~~b).toNat : ℝ) : EReal) := by
  rcases bit_cases b with rfl | rfl
  · have h : IntOp.cmpi .ne ((0#1 : BitVec 1).setWidth 32) 0#32 = 0#1 := by decide
    rw [h, ValueIdx.select_zero]
    have : ((~~~(0#1 : BitVec 1)).toNat : ℝ) = 1 := by norm_num [show (~~~(0#1 : BitVec 1)).toNat = 1 by decide]
    rw [this, EReal.coe_one, mul_one]
  · have h : IntOp.cmpi .ne ((1#1 : BitVec 1).setWidth 32) 0#32 = 1#1 := by decide
    rw [h, ValueIdx.select_one]
    have : ((~~~(1#1 : BitVec 1)).toNat : ℝ) = 0 := by norm_num [show (~~~(1#1 : BitVec 1)).toNat = 0 by decide]
    rw [this, EReal.coe_zero, mul_zero]

/-- The scale both programs use, `2⁻³`, as a real. -/
theorem eighth : Ideal.ofBits .f32 0x3E000000#32 = ((1 / 8 : ℝ) : EReal) := by
  simp [Ideal.ofBits, Ideal.ieee, -EReal.coe_mul]; norm_num

end Cert.Attn.Laws

end
-- ==== Proof.Heads.lean ====
/-
  Merging and splitting the batch and head axes: a 4×8×C×D array and its 32×C×D reshape hold the same entries,
  entry (b, h, n, d) of the one at (8·b + h, n, d) of the other — the two row-major positions are the same number.
-/
import Idealize.ShloMosaic.Lib.Pipeline.Value
import Idealize.ShloMosaic.Lib.ValueIdx

noncomputable section

namespace Cert.Attn.Heads

open Idealize.ShloMosaic Idealize.ShloMosaic.ValueIdx

/-- The merged index of batch b and head h. -/
abbrev bh (b : Fin 4) (h : Fin 8) : Fin 32 := ⟨b.val * 8 + h.val, by omega⟩

/-- The merged array at (8·b + h, n, d) is the 4×8×C×D array at (b, h, n, d). -/
theorem merge_apply {α : Type} {C D : Nat} (x : (⟨4, ![4, 8, C, D]⟩ : Shape).Idx → α)
    (hc : (⟨4, ![4, 8, C, D]⟩ : Shape).ShapeCasts ⟨3, ![32, C, D]⟩) (b : Fin 4) (h : Fin 8) (n : Fin C) (d : Fin D) :
    shapeCast ⟨3, ![32, C, D]⟩ x hc (ix3 (bh b h) n d) = x (ix4 b h n d) := by
  refine shapeCast_apply x hc (ix3 (bh b h) n d) (ix4 b h n d) ?_
  rw [Shape.rowMajor_val_four, Shape.rowMajor_val_three]
  rfl

/-- The split array at (b, h, n, d) is the 32×C×D array at (8·b + h, n, d). -/
theorem split_apply {α : Type} {C D : Nat} (y : (⟨3, ![32, C, D]⟩ : Shape).Idx → α)
    (hc : (⟨3, ![32, C, D]⟩ : Shape).ShapeCasts ⟨4, ![4, 8, C, D]⟩) (b : Fin 4) (h : Fin 8) (n : Fin C) (d : Fin D) :
    shapeCast ⟨4, ![4, 8, C, D]⟩ y hc (ix4 b h n d) = y (ix3 (bh b h) n d) := by
  refine shapeCast_apply y hc (ix4 b h n d) (ix3 (bh b h) n d) ?_
  rw [Shape.rowMajor_val_four, Shape.rowMajor_val_three]
  rfl

end Cert.Attn.Heads

end
-- ==== Proof.Bridge.lean ====
/-
  The two programs compute one function.

  Entry (b, h, n, d) of the kernel's result is, through the merge and split of the batch and head axes,

      ∑ m,  [widened mask(b,h,n,m) ≠ 0 ? 0 : tanh (∑ e, (q(b,h,n,e) · 2⁻³) · k(b,h,m,e))] · v(b,h,m,d)

  and of the reference's

      ∑ m,  [tanh ((∑ e, q(b,h,n,e) · k(b,h,m,e)) · 2⁻³) · (¬mask(b,h,n,m))] · v(b,h,m,d).

  Term by term these agree: the scale leaves the 64-term dot product because every query and key entry is a real
  number (this is where the precondition is used), and selecting zero under a set mask bit is multiplying by the
  complement bit. The sum over the keys is the same sum on both sides, so nothing is asked of the values.
-/
import proofs.«425408_j67637144978383_3_alg».proof.Proof.KernelRun
import proofs.«425408_j67637144978383_3_alg».proof.Proof.RefValue
import proofs.«425408_j67637144978383_3_alg».proof.Proof.Laws
import proofs.«425408_j67637144978383_3_alg».proof.Proof.Heads

noncomputable section

namespace Cert.Attn.Bridge

open Idealize.ShloMosaic Idealize.ShloMosaic.ValueIdx Cert.Attn.Heads Cert.Attn.Laws
open Cert.KernelIdeal.Attn (kernelOut regionOut regionOutAt regionWeight regionOut_ix3)
open Cert.ReferenceIdeal.Attn (refWeight ref_apply)

/-- The kernel's result is the reference's, for real-valued queries and keys. -/
theorem kernel_eq_ref (q k v : Vec Ideal Cert.KernelIdeal.S4x8x2048x64 .f32) (mask : Vec Ideal Cert.KernelIdeal.S4x8x2048x2048 .i1)
    (hq : ∀ i, ∃ r : ℝ, q i = (r : EReal)) (hk : ∀ i, ∃ r : ℝ, k i = (r : EReal)) :
    kernelOut q k v mask = Cert.ReferenceIdeal.Read.val_main_v7 (F := Ideal) q k v mask := by
  funext i
  obtain ⟨b, h, n, d, rfl⟩ : ∃ (b : Fin 4) (h : Fin 8) (n : Fin 2048) (d : Fin 64), i = ix4 b h n d := ⟨i 0, i 1, i 2, i 3, eq_ix4 i⟩
  rw [ref_apply]
  unfold kernelOut
  rw [split_apply, regionOut_ix3]
  unfold regionOutAt
  refine Finset.sum_congr rfl fun mm _ => ?_
  unfold regionWeight refWeight
  simp only [merge_apply, extui_apply]
  rw [Ideal.ofBits_zero_f32, eighth]
  have hs := scaled_dot (fun e => q (ix4 b h n e)) (fun e => k (ix4 b h mm e)) (1 / 8) (fun e => hq _) (fun e => hk _)
  rw [hs, masked]

end Cert.Attn.Bridge

end
-- ==== Proof.lean ====
/-
  The certificate: a masked tanh-attention kernel against its einsum reference, over the extended reals.

  Both programs compute, for batch b, head h, query n and feature d,

      out(b,h,n,d) = ∑ m < 2048,  w(b,h,n,m) · v(b,h,m,d),
      w(b,h,n,m)   = 0 where mask(b,h,n,m) is set, else tanh (2⁻³ · ∑ e < 64, q(b,h,n,e) · k(b,h,m,e)).

  The kernel scales the queries before the score product and selects zero under the mask; the reference scales the
  scores after the product and multiplies by the complemented mask. At the ideal instance the changes of float format
  are the identity and both matrix products are exact sums, so the two differ only by (i) where the factor 2⁻³ stands
  relative to the 64-term sum, which is the same number once every query and key entry is real (the precondition), and
  (ii) select-zero against multiply-by-zero-or-one, which agree for every value.

  Modules: Laws (the scalar laws), Finite (the precondition read back), Payload (one grid point's stored block, entry
  by entry), Blocks (the 64 blocks tile one function of the region's arrays), KernelRun (the host lines around the
  region: merging and splitting the batch and head axes, widening the mask), Heads (that merge and split at an index),
  RefValue (the reference entry by entry), Bridge (the two functions are one).

  The three frames: the kernel's two are the launch-side certificates of its one region; the reference has no kernel,
  and its frame is its run with the result dropped. The idealization rewrote nothing, so `preserves` is trivial.
-/
import proofs.«425408_j67637144978383_3_alg».proof.Defs
import proofs.«425408_j67637144978383_3_alg».proof.Proof.Gen.Kernel
import proofs.«425408_j67637144978383_3_alg».proof.Proof.Gen.Kernel.Skeleton
import proofs.«425408_j67637144978383_3_alg».proof.Proof.Gen.Kernel.Launch
import proofs.«425408_j67637144978383_3_alg».proof.Proof.Gen.Kernel.Points
import proofs.«425408_j67637144978383_3_alg».proof.Proof.Gen.Kernel.Frame
import proofs.«425408_j67637144978383_3_alg».proof.Proof.Gen.KernelIdeal
import proofs.«425408_j67637144978383_3_alg».proof.Proof.Gen.KernelIdeal.Skeleton
import proofs.«425408_j67637144978383_3_alg».proof.Proof.Gen.KernelIdeal.Launch
import proofs.«425408_j67637144978383_3_alg».proof.Proof.Gen.KernelIdeal.Points
import proofs.«425408_j67637144978383_3_alg».proof.Proof.Gen.KernelIdeal.Frame
import proofs.«425408_j67637144978383_3_alg».proof.Proof.Gen.ReferenceIdeal
import proofs.«425408_j67637144978383_3_alg».proof.Proof.Gen.Pre_finite_inputs
import proofs.«425408_j67637144978383_3_alg».proof.Proof.Gen.ReferenceIdeal.Run
import proofs.«425408_j67637144978383_3_alg».proof.Proof.Gen.ReferenceIdeal.Read
import proofs.«425408_j67637144978383_3_alg».proof.Proof.Finite
import proofs.«425408_j67637144978383_3_alg».proof.Proof.KernelRun
import proofs.«425408_j67637144978383_3_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's run ends at its
    function of the arguments, the reference's at its own, and for finite queries and keys the two are one function. -/
theorem algebraic : Cert.algebraic_KernelIdeal_ReferenceIdeal := by
  intro m ρ m' ρ' hpre hagree
  refine ⟨_, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v7_eq]
  obtain ⟨hq, hk, -⟩ := Cert.Attn.Finite.real_of_pre _ _ _ _ (hpre c)
  exact (Cert.Attn.Bridge.kernel_eq_ref _ _ _ _ hq hk).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
